-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2 : Shape := ⟨3, ![4, 8192, 2]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel

variable [Facts]

def fn {F : FTy → Type} [FloatOps F] (main_arg0 : FVec F S4x8192x2 .f32) : IVec S_ 1 :=
  let main_v0 : FVec F S4x8192x2 .f32 := Host.absf main_arg0
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  main_v3
-- ==== Kernel.lean ====
abbrev S4x8192x2 : Shape := ⟨3, ![4, 8192, 2]⟩
abbrev S4x2x8192 : Shape := ⟨3, ![4, 2, 8192]⟩
abbrev S4x8192x8192 : Shape := ⟨3, ![4, 8192, 8192]⟩
abbrev S1x1024x2 : Shape := ⟨3, ![1, 1024, 2]⟩
abbrev S1x2x1024 : Shape := ⟨3, ![1, 2, 1024]⟩
abbrev S1x1024x1024 : Shape := ⟨3, ![1, 1024, 1024]⟩
abbrev S1024x2 : Shape := ⟨2, ![1024, 2]⟩
abbrev S1x1024x1 : Shape := ⟨3, ![1, 1024, 1]⟩
abbrev S1024x1 : Shape := ⟨2, ![1024, 1]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S4x8192x2, .f32⟩
  | .hbm, ⟨1, _⟩ => ⟨S4x2x8192, .f32⟩
  | .hbm, ⟨2, _⟩ => ⟨S4x8192x8192, .f32⟩
  | .hbm, ⟨3, _⟩ => ⟨S4x8192x2, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024, .f32⟩
  | .local _ .vmem, ⟨3, _⟩ => ⟨S1x2x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x2, .f32⟩
  | .local _ .vmem, ⟨7, _⟩ => ⟨S1x1024x2, .f32⟩
  | .local _ .vmem, ⟨8, _⟩ => ⟨S1024x2, .f32⟩
  | _, _ => ⟨S4x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_24 : BitVec 32 := 0#32
  let v57 : BitVec 1 := Scalar.cmpi .ne v56 c0_i32_24
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4x8192x2_S4x2x8192_0_2_1 : S4x8192x2.Transposes [0, 2, 1] S4x2x8192
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x1024x2_S1x1024x1_0_0_0 : ∀ a, (![0, 0, 0] : Fin 3 → Nat) a + S1x1024x1.size a ≤ S1x1024x2.size a
  h_S1x1024x1 : 0 < S1x1024x1.numel
  shapeCasts_S1x1024x1_S1024x1 : S1x1024x1.ShapeCasts S1024x1
  inb_S1x1024x2_S1x1024x1_0_0_1 : ∀ a, (![0, 0, 1] : Fin 3 → Nat) a + S1x1024x1.size a ≤ S1x1024x2.size a
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  inb_S1x2x1024_S1x1x1024_0_1_0 : ∀ a, (![0, 1, 0] : Fin 3 → Nat) a + S1x1x1024.size a ≤ S1x2x1024.size a
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024 : S1024x1024.Reduces [1] S1024
  shapeCasts_S1024_S1024x1 : S1024.ShapeCasts S1024x1
  concatenates_S1024x1_S1024x1_S1024x2_d1 : Shape.Concatenates [S1024x1, S1024x1] S1024x2 1
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S4x8192x2.size a
  hwx0_0 : ∀ i : grid0.Coords, EltTy.bits .f32 = 32 ∨ (Rect.block (s := S4x8192x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S4x2x8192.size a
  hwx0_1 : ∀ i : grid0.Coords, EltTy.bits .f32 = 32 ∨ (Rect.block (s := S4x2x8192) S1x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x8192x8192.size a
  hwx0_2 : ∀ i : grid0.Coords, EltTy.bits .f32 = 32 ∨ (Rect.block (s := S4x8192x8192) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2.size a ≤ S4x8192x2.size a
  hwx0_3 : ∀ i : grid0.Coords, EltTy.bits .f32 = 32 ∨ (Rect.block (s := S4x8192x2) S1x1024x2.size (cc0_transform_3 i) (hinb0_3 i)).WholeWords (EltTy.packing .f32)

variable [Facts₀]

abbrev win0_0 : Pipeline.Window sig grid0 :=
  Pipeline.Window.ofSpec (Memref.whole main_arg0) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x2 : Shape := ⟨3, ![4, 8192, 2]⟩
abbrev S4x8192x8192 : Shape := ⟨3, ![4, 8192, 8192]⟩
abbrev S4x8192x1 : Shape := ⟨3, ![4, 8192, 1]⟩
abbrev S4x8192 : Shape := ⟨2, ![4, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2, .f32⟩
  | .hbm, ⟨1, _⟩ => ⟨S4x8192x8192, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S4x8192, .f32⟩
  | .hbm, ⟨7, _⟩ => ⟨S4x8192x1, .f32⟩
  | .hbm, ⟨8, _⟩ => ⟨S4x8192x1, .f32⟩
  | .hbm, ⟨9, _⟩ => ⟨S4x8192x2, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192x8192, .f32⟩
  | .hbm, ⟨24, _⟩ => ⟨S4x8192x8192, .i1⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S4x8192x2, .f32⟩
  | _, _ => ⟨S4x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  slices_S4x8192x2_S4x8192x1_0_0_1 : S4x8192x2.Slices ![0, 0, 1] S4x8192x1
  shapeCasts_S4x8192x1_S4x8192 : S4x8192x1.ShapeCasts S4x8192
  slices_S4x8192x2_S4x8192x1_0_0_0 : S4x8192x2.Slices ![0, 0, 0] S4x8192x1
  bcast_S4x8192_S4x8192x1_0_1 : S4x8192.BroadcastsInDim S4x8192x1 (![0, 1] : Fin 2 → Fin S4x8192x1.rank)
  concatenates_S4x8192x1_S4x8192x1_S4x8192x2_d2 : Shape.Concatenates [S4x8192x1, S4x8192x1] S4x8192x2 2
  bcast_S_S4x8192x8192 : S_.BroadcastsInDim S4x8192x8192 (![] : Fin 0 → Fin S4x8192x8192.rank)
  dot_S4x8192x2_S4x8192x2_S4x8192x8192_2_2_1_1_0_0_wf : DotDims.WF S4x8192x2 S4x8192x2 S4x8192x8192 [2] [2] [1] [1] [0] [0]
  dot_S4x8192x8192_S4x8192x2_S4x8192x2_2_1_1_2_0_0_wf : DotDims.WF S4x8192x8192 S4x8192x2 S4x8192x2 [2] [1] [1] [2] [0] [0]

variable [Facts₀]

def dot_S4x8192x2_S4x8192x2_S4x8192x8192_2_2_1_1_0_0 : DotDims S4x8192x2 S4x8192x2 S4x8192x8192 where
  lhsContracting := [2]
  rhsContracting := [2]
  lhsNonContracting := [1]
  rhsNonContracting := [1]
  lhsBatch := [0]
  rhsBatch := [0]
  wf := dot_S4x8192x2_S4x8192x2_S4x8192x8192_2_2_1_1_0_0_wf
def dot_S4x8192x8192_S4x8192x2_S4x8192x2_2_1_1_2_0_0 : DotDims S4x8192x8192 S4x8192x2 S4x8192x2 where
  lhsContracting := [2]
  rhsContracting := [1]
  lhsNonContracting := [1]
  rhsNonContracting := [2]
  lhsBatch := [0]
  rhsBatch := [0]
  wf := dot_S4x8192x8192_S4x8192x2_S4x8192x2_2_1_1_2_0_0_wf

class Facts : Prop extends Facts₀ where

variable [Facts]
-- ==== Proof.FluxSpec.lean ====
/-
  The mathematics of the kernel, on the extended reals, with no program in sight.

  A state is a point (x, y) of the plane; there are 8192 of them in each of 4 batches. For a row state (x, y) and a
  column state (u, v) the SIMILARITY is the inner product plus a tenth (the f32 word nearest 1/10, the same word
  wherever it occurs) of the cross product,
      s = (x u + y v) + a (x v - y u),
  the GATE is g = 1 / (e + |s|) with |s| = max s (-s), and the ATTENTION entry is s g where g exceeds one half and
  zero elsewhere. The CONTEXT of a row is the attention-weighted sum of all 8192 column states of its batch.

  Two programs are compared against these functions. One writes the cross product as x v + y (-u) and the mask as a
  factor 0 or 1 between s and g; the two pointwise laws below say that this changes nothing on the extended reals
  (negation distributes over a product, and a zero factor annihilates, infinities included).
-/
import Idealize.ShloMosaic.PureOps.Ideal
import Idealize.ShloMosaic.PureOps.Ideal.Laws
import Idealize.ShloMosaic.Lib.ValueIdx

noncomputable section

open scoped BigOperators

namespace Cert.Flux

open Idealize.ShloMosaic Idealize.ShloMosaic.ValueIdx

/-- The states, `[4, 8192, 2]`, and the attention matrices, `[4, 8192, 8192]`. -/
abbrev SState : Shape := ⟨3, ![4, 8192, 2]⟩
abbrev SAttn : Shape := ⟨3, ![4, 8192, 8192]⟩

/-- The similarity of a row state `(x, y)` and a column state `(u, v)`: inner product plus a tenth of the cross product. -/
def simOf (x y u v : EReal) : EReal :=
  (x * u + y * v) + Ideal.ofBits .f32 0x3DCCCCCD#32 * (x * v - y * u)

/-- The gate of a similarity: the reciprocal of a small constant plus its absolute value. -/
def gateOf (s : EReal) : EReal :=
  Ideal.div (Ideal.ofBits .f32 0x3F800000#32) (Ideal.ofBits .f32 0x3727C5AC#32 + max s (-s))

/-- Whether the gate of a similarity exceeds one half, as a bit. -/
def openOf (s : EReal) : BitVec 1 :=
  Ideal.cmp .ogt (gateOf s) (Ideal.ofBits .f32 0x3F000000#32)

/-- The attention entry of a similarity: the gated similarity where the gate is open, zero where it is shut. -/
def attOf (s : EReal) : EReal :=
  Scalar.select (openOf s) (s * gateOf s) (Ideal.ofBits .f32 0x00000000#32)

/-- The attention matrix of an array of states: entry `(b, i, j)` from states `i` and `j` of batch `b`. -/
def attention (S : SState.Idx → EReal) : SAttn.Idx → EReal := fun i =>
  attOf (simOf (S (ix3 (i 0) (i 1) 0)) (S (ix3 (i 0) (i 1) 1)) (S (ix3 (i 0) (i 2) 0)) (S (ix3 (i 0) (i 2) 1)))

/-- The context of an array of states: entry `(b, i, k)` is the sum over all columns `j` of the attention entry
    `(b, i, j)` times coordinate `k` of state `j`. -/
def context (S : SState.Idx → EReal) : SState.Idx → EReal := fun i =>
  ∑ j : Fin 8192, attention S (ix3 (i 0) (i 1) j) * S (ix3 (i 0) j (i 2))

/-- The cross product written with a negated factor: `x v + y (-u) = x v - y u` on the extended reals. -/
theorem cross_neg (x y u v : EReal) : x * v + y * (-u) = x * v - y * u := by
  rw [mul_neg, sub_eq_add_neg]

/-- The mask as a factor: the similarity times the gate bit read as the number 0 or 1, times the gate, is the
    attention entry — a zero factor annihilates whatever the gate is, and the zero word denotes zero. -/
theorem masked_product (s : EReal) :
    s * (((openOf s).toNat : ℝ) : EReal) * gateOf s = attOf s := by
  unfold attOf
  by_cases h : openOf s = 1#1
  · rw [h, select_one]; simp
  · rw [eq_zero_of_ne_one h, select_zero]
    simp [Ideal.ofBits_zero_f32]

end Cert.Flux

end
-- ==== Proof.FluxRef.lean ====
/-
  The reference computes the two functions of the specification.

  Its similarity is two inner products over the two coordinates: the states against themselves, and the states against
  the ROTATED states `(y, -x)` — a slice, a negation and a join along the last axis —, the second scaled by a tenth.
  Entry `(b, i, j)` is therefore `(x_i x_j + y_i y_j) + a (x_i y_j + y_i (-x_j))`, which is the similarity of states
  `i` and `j` (negation distributes over the product). Its attention is the similarity times the gate bit read as 0
  or 1, times the gate: the attention entry. Its context is the product of the attention matrix with the states: the
  sum over all 8192 columns.
-/
import proofs.«104769_j14963666059655_1_alg».proof.Proof.Gen.ReferenceIdeal.Read
import proofs.«104769_j14963666059655_1_alg».proof.Proof.FluxSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Flux
open Idealize.ShloMosaic Idealize.ShloMosaic.ValueIdx

variable (x0 : S4x8192x2.Idx → EReal)

/-- The `y` column of the states, as a `[4, 8192]` array. -/
theorem ycol_apply (b : Fin 4) (j : Fin 8192) :
    val_main_v2 (F := Ideal) x0 (ix2 b j) = x0 (ix3 b j (1 : Fin 2)) := by
  rw [val_main_v2_apply, val_main_v1_apply]
  refine congrArg x0 (funext fun a => Fin.ext ?_)
  have hb := b.isLt
  have hj := j.isLt
  match a with
  | ⟨0, _⟩ => show (b.val * 8192 + j.val) / 8192 = b.val; omega
  | ⟨1, _⟩ => show (b.val * 8192 + j.val) / 1 % 8192 = j.val; omega
  | ⟨2, _⟩ => rfl

/-- The `x` column of the states, as a `[4, 8192]` array. -/
theorem xcol_apply (b : Fin 4) (j : Fin 8192) :
    val_main_v4 (F := Ideal) x0 (ix2 b j) = x0 (ix3 b j (0 : Fin 2)) := by
  rw [val_main_v4_apply, val_main_v3_apply]
  refine congrArg x0 (funext fun a => Fin.ext ?_)
  have hb := b.isLt
  have hj := j.isLt
  match a with
  | ⟨0, _⟩ => show (b.val * 8192 + j.val) / 8192 = b.val; omega
  | ⟨1, _⟩ => show (b.val * 8192 + j.val) / 1 % 8192 = j.val; omega
  | ⟨2, _⟩ => rfl

/-- THE ROTATED STATES, coordinate 0: the `y` of the state. -/
theorem rot_apply0 (b : Fin 4) (j : Fin 8192) :
    val_main_v8 (F := Ideal) x0 (ix3 b j (0 : Fin 2)) = x0 (ix3 b j (1 : Fin 2)) := by
  unfold val_main_v8
  refine (concatenate_pair_apply_left (t := S4x8192x2) (s₁ := S4x8192x1) (s₂ := S4x8192x1) (2 : Fin 3) _ _
    concatenates_S4x8192x1_S4x8192x1_S4x8192x2_d2
    (ix3 b j (0 : Fin 2)) (show S4x8192x1.rank = S4x8192x2.rank from rfl) (ix3 b j (0 : Fin 1)) (fun a => by
      match a with
      | ⟨0, _⟩ => rfl
      | ⟨1, _⟩ => rfl
      | ⟨2, _⟩ => rfl)).trans ?_
  rw [val_main_v6_apply]
  exact ycol_apply x0 b j

/-- THE ROTATED STATES, coordinate 1: minus the `x` of the state. -/
theorem rot_apply1 (b : Fin 4) (j : Fin 8192) :
    val_main_v8 (F := Ideal) x0 (ix3 b j (1 : Fin 2)) = -(x0 (ix3 b j (0 : Fin 2))) := by
  unfold val_main_v8
  refine (concatenate_pair_apply_right (t := S4x8192x2) (s₁ := S4x8192x1) (s₂ := S4x8192x1) (2 : Fin 3) _ _
    concatenates_S4x8192x1_S4x8192x1_S4x8192x2_d2
    (ix3 b j (1 : Fin 2)) (show S4x8192x1.rank = S4x8192x2.rank from rfl) (show S4x8192x1.rank = S4x8192x2.rank from rfl)
    (ix3 b j (0 : Fin 1)) (fun a ha => by
      match a with
      | ⟨0, _⟩ => rfl
      | ⟨1, _⟩ => rfl
      | ⟨2, _⟩ => exact absurd rfl ha) rfl).trans ?_
  rw [val_main_v7_apply, val_main_v5_apply]
  exact congrArg (fun z : EReal => -z) (xcol_apply x0 b j)

/-- THE REFERENCE'S SIMILARITY at `(b, i, j)` is the similarity of states `i` and `j` of batch `b`. -/
theorem sim_apply (b : Fin 4) (i j : Fin 8192) :
    val_main_v12 (F := Ideal) x0 (ix3 b i j)
      = simOf (x0 (ix3 b i (0 : Fin 2))) (x0 (ix3 b i (1 : Fin 2))) (x0 (ix3 b j (0 : Fin 2))) (x0 (ix3 b j (1 : Fin 2))) := by
  rw [val_main_v12_apply, val_main_v0_apply, val_main_v11_apply, val_main_v10_apply, val_main_cst_apply,
    val_main_v9_apply, Fin.sum_univ_two, Fin.sum_univ_two]
  have l0 : lidx_main_v0 (ix3 b i j) (0 : Fin 2) = ix3 b i (0 : Fin 2) := funext fun a => Fin.ext (by
    match a with | ⟨0, _⟩ => rfl | ⟨1, _⟩ => rfl | ⟨2, _⟩ => rfl)
  have l1 : lidx_main_v0 (ix3 b i j) (1 : Fin 2) = ix3 b i (1 : Fin 2) := funext fun a => Fin.ext (by
    match a with | ⟨0, _⟩ => rfl | ⟨1, _⟩ => rfl | ⟨2, _⟩ => rfl)
  have r0 : ridx_main_v0 (ix3 b i j) (0 : Fin 2) = ix3 b j (0 : Fin 2) := funext fun a => Fin.ext (by
    match a with | ⟨0, _⟩ => rfl | ⟨1, _⟩ => rfl | ⟨2, _⟩ => rfl)
  have r1 : ridx_main_v0 (ix3 b i j) (1 : Fin 2) = ix3 b j (1 : Fin 2) := funext fun a => Fin.ext (by
    match a with | ⟨0, _⟩ => rfl | ⟨1, _⟩ => rfl | ⟨2, _⟩ => rfl)
  have l0' : lidx_main_v9 (ix3 b i j) (0 : Fin 2) = ix3 b i (0 : Fin 2) := l0
  have l1' : lidx_main_v9 (ix3 b i j) (1 : Fin 2) = ix3 b i (1 : Fin 2) := l1
  have r0' : ridx_main_v9 (ix3 b i j) (0 : Fin 2) = ix3 b j (0 : Fin 2) := r0
  have r1' : ridx_main_v9 (ix3 b i j) (1 : Fin 2) = ix3 b j (1 : Fin 2) := r1
  rw [l0, l1, r0, r1, l0', l1', r0', r1', rot_apply0, rot_apply1]
  unfold simOf
  simp only [Ideal.addf_def, Ideal.mulf_def, Ideal.ofBits_def]
  rw [cross_neg]

/-- THE REFERENCE'S ATTENTION is the attention matrix of the states. -/
theorem attention_eq : val_main_v22 (F := Ideal) x0 = attention x0 := by
  funext i
  obtain ⟨b, r, c, rfl⟩ : ∃ (b : Fin 4) (r c : Fin 8192), i = ix3 b r c := ⟨i 0, i 1, i 2, eq_ix3 i⟩
  rw [val_main_v22_apply, val_main_v21_apply, val_main_v20_apply, val_main_v19_apply, val_main_v17_apply,
    val_main_v18_apply, val_main_cst_2_apply, val_main_v16_apply, val_main_cst_1_apply, val_main_v15_apply,
    val_main_v14_apply, val_main_cst_0_apply, val_main_v13_apply, sim_apply]
  exact masked_product _

/-- THE REFERENCE'S CONTEXT is the context of the states. -/
theorem context_eq : val_main_v23 (F := Ideal) x0 = context x0 := by
  funext i
  obtain ⟨b, r, k, rfl⟩ : ∃ (b : Fin 4) (r : Fin 8192) (k : Fin 2), i = ix3 b r k := ⟨i 0, i 1, i 2, eq_ix3 i⟩
  rw [val_main_v23_apply, attention_eq]
  unfold context
  refine Finset.sum_congr rfl fun j _ => ?_
  have el : lidx_main_v23 (ix3 b r k) j = ix3 b r j := funext fun a => Fin.ext (by
    match a with | ⟨0, _⟩ => rfl | ⟨1, _⟩ => rfl | ⟨2, _⟩ => rfl)
  have er : ridx_main_v23 (ix3 b r k) j = ix3 b j k := funext fun a => Fin.ext (by
    match a with | ⟨0, _⟩ => rfl | ⟨1, _⟩ => rfl | ⟨2, _⟩ => rfl)
  rw [el, er]

end Cert.ReferenceIdeal.RefValue

end
-- ==== Proof.FluxPieces.lean ====
/-
  What one run of the body leaves behind, as terms of what it loaded.

  A grid point's body reads column 0 and column 1 of its row block (the `x` and `y` of 1024 row states) and row 0 and
  row 1 of its column block (the `u` and `v` of 1024 column states). Whatever the point, it leaves in the attention
  output's buffer the attention tile of those four loads. In the carried accumulator it leaves what was there plus
  the tile's two context sums — at the first point of a row of the grid, where the accumulator is first set to zero,
  zero plus those sums. At the last point of a row it also copies the accumulator, as just updated, into the context
  output's buffer.
-/
import proofs.«104769_j14963666059655_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The four loads of the body: the two columns of the row block and the two rows of the column block. -/
abbrev ldX (x0 : Vec F S1x1024x2 .f32) : Vec F S1x1024x1 .f32 :=
  View.ld x0 (Rect.unit (s := S1x1024x2) ![0, 0, 0] S1x1024x1.size inb_S1x1024x2_S1x1024x1_0_0_0)
abbrev ldY (x0 : Vec F S1x1024x2 .f32) : Vec F S1x1024x1 .f32 :=
  View.ld x0 (Rect.unit (s := S1x1024x2) ![0, 0, 1] S1x1024x1.size inb_S1x1024x2_S1x1024x1_0_0_1)
abbrev ldU (x1 : Vec F S1x2x1024 .f32) : Vec F S1x1x1024 .f32 :=
  View.ld x1 (Rect.unit (s := S1x2x1024) ![0, 0, 0] S1x1x1024.size inb_S1x2x1024_S1x1x1024_0_0_0)
abbrev ldV (x1 : Vec F S1x2x1024 .f32) : Vec F S1x1x1024 .f32 :=
  View.ld x1 (Rect.unit (s := S1x2x1024) ![0, 1, 0] S1x1x1024.size inb_S1x2x1024_S1x1x1024_0_1_0)

/-- The attention tile of a row block and a column block, as the block the store writes. -/
abbrev attBlock (x0 : Vec F S1x1024x2 .f32) (x1 : Vec F S1x2x1024 .f32) : Vec F S1x1024x1024 .f32 :=
  k0_pay2 (k0_pay10 (ldX x0) (ldY x0) (ldU x1) (ldV x1)) (k0_pay11 (ldX x0) (ldY x0) (ldU x1) (ldV x1)) (k0_pay12 (F := F))

/-- The accumulator after the body: what it held plus the tile's two context sums. -/
abbrev accStep (x0 : Vec F S1x1024x2 .f32) (x1 : Vec F S1x2x1024 .f32) (acc : Vec F S1024x2 .f32) : Vec F S1024x2 .f32 :=
  k0_pay3 (k0_pay6 (ldU x1)) (k0_pay7 (ldV x1)) (k0_pay10 (ldX x0) (ldY x0) (ldU x1) (ldV x1))
    (k0_pay11 (ldX x0) (ldY x0) (ldU x1) (ldV x1)) (k0_pay12 (F := F)) acc

variable (c : Dev nD) (i : grid0.Coords)
  (arg3 : Memref sig .tc .vmem S1x1024x2 .f32) (harg3 : arg3.IsWhole)
  (arg4 : Memref sig .tc .vmem S1x2x1024 .f32) (harg4 : arg4.IsWhole)
  (arg5 : Memref sig .tc .vmem S1x1024x1024 .f32) (harg5 : arg5.IsWhole)
  (arg6 : Memref sig .tc .vmem S1x1024x2 .f32) (harg6 : arg6.IsWhole)
  (arg7 : Memref sig .tc .vmem S1024x2 .f32) (harg7 : arg7.IsWhole)
  (x0 : Vec F S1x1024x2 .f32) (x1 : Vec F S1x2x1024 .f32) (xs0 : Vec F S1024x2 .f32)

/-! ## The attention output's buffer -/

/-- At a first point of a row of the grid the body leaves the attention tile. -/
theorem att_A (hc0 : cond0_0 i) (hc1 : ¬cond0_1 i) :
    out0_A_2 c i arg3 harg3 arg4 harg4 arg5 harg5 arg6 harg6 arg7 harg7 hc0 hc1 x0 x1 = attBlock x0 x1 := by
  unfold out0_A_2
  rw [View.read_writes_eq_canon _ _ _ (cover0_A_2 c i arg3 harg3 arg4 harg4 arg5 harg5 arg6 harg6 arg7 harg7 hc0 hc1 x0 x1)]
  unfold kernelRun0_A
  dsimp only
  sl_unfold_words
  rw [View.canon_unit_zero hz3]
  simp only [View.readAt_eq_ld, harg3.read_unread, harg4.read_unread]

/-- At a middle point likewise. -/
theorem att_B (hc0 : ¬cond0_0 i) (hc1 : ¬cond0_1 i) :
    out0_B_2 c i arg3 harg3 arg4 harg4 arg5 harg5 arg6 harg6 arg7 harg7 hc0 hc1 x0 x1 xs0 = attBlock x0 x1 := by
  unfold out0_B_2
  rw [View.read_writes_eq_canon _ _ _ (cover0_B_2 c i arg3 harg3 arg4 harg4 arg5 harg5 arg6 harg6 arg7 harg7 hc0 hc1 x0 x1 xs0)]
  unfold kernelRun0_B
  dsimp only
  sl_unfold_words
  rw [View.canon_unit_zero hz3]
  simp only [View.readAt_eq_ld, harg3.read_unread, harg4.read_unread]

/-- At a last point likewise. -/
theorem att_C (hc0 : ¬cond0_0 i) (hc1 : cond0_1 i) :
    out0_C_2 c i arg3 harg3 arg4 harg4 arg5 harg5 arg6 harg6 arg7 harg7 hc0 hc1 x0 x1 xs0 = attBlock x0 x1 := by
  unfold out0_C_2
  rw [View.read_writes_eq_canon _ _ _ (cover0_C_2 c i arg3 harg3 arg4 harg4 arg5 harg5 arg6 harg6 arg7 harg7 hc0 hc1 x0 x1 xs0)]
  unfold kernelRun0_C
  dsimp only
  sl_unfold_words
  rw [View.canon_unit_zero hz3]
  simp only [View.readAt_eq_ld, harg3.read_unread, harg4.read_unread]

/-! ## The carried accumulator -/

/-- At a middle point the accumulator is stepped from what the point before left. -/
theorem acc_B (hc0 : ¬cond0_0 i) (hc1 : ¬cond0_1 i) :
    sout0_B_0 c i arg3 harg3 arg4 harg4 arg5 harg5 arg6 harg6 arg7 harg7 hc0 hc1 x0 x1 xs0 = accStep x0 x1 xs0 := by
  unfold sout0_B_0
  rw [View.read_writes_eq_canon _ _ _ (scover0_B_0 c i arg3 harg3 arg4 harg4 arg5 harg5 arg6 harg6 arg7 harg7 hc0 hc1 x0 x1 xs0)]
  unfold kernelRun0_B
  dsimp only
  sl_unfold_words
  rw [View.canon_unit_zero hz2]
  simp only [View.readAt_eq_ld, harg3.read_unread, harg4.read_unread, harg7.read_unread, View.ld_unit_zero (S := S1024x2) hz2]

/-- At a last point likewise. -/
theorem acc_C (hc0 : ¬cond0_0 i) (hc1 : cond0_1 i) :
    sout0_C_0 c i arg3 harg3 arg4 harg4 arg5 harg5 arg6 harg6 arg7 harg7 hc0 hc1 x0 x1 xs0 = accStep x0 x1 xs0 := by
  unfold sout0_C_0
  rw [View.read_writes_eq_canon _ _ _ (scover0_C_0 c i arg3 harg3 arg4 harg4 arg5 harg5 arg6 harg6 arg7 harg7 hc0 hc1 x0 x1 xs0)]
  unfold kernelRun0_C
  dsimp only
  sl_unfold_words
  rw [View.canon_unit_zero hz2]
  simp only [View.readAt_eq_ld, harg3.read_unread, harg4.read_unread, harg7.read_unread, View.ld_unit_zero (S := S1024x2) hz2]

/-- At a first point the accumulator is first set to zero, read back, and stepped: the step from the zero block. -/
theorem acc_A (hc0 : cond0_0 i) (hc1 : ¬cond0_1 i) :
    sout0_A_0 c i arg3 harg3 arg4 harg4 arg5 harg5 arg6 harg6 arg7 harg7 hc0 hc1 x0 x1 = accStep x0 x1 (k0_pay5 (F := F)) := by
  unfold sout0_A_0
  rw [View.read_writes_eq_canon _ _ _ (scover0_A_0 c i arg3 harg3 arg4 harg4 arg5 harg5 arg6 harg6 arg7 harg7 hc0 hc1 x0 x1)]
  unfold kernelRun0_A
  dsimp only
  sl_unfold_words
  rw [View.canon_cons_unit_zero (S := S1024x2) hz2]
  simp only [View.readAt_eq_ld, harg3.read_unread, harg4.read_unread, View.readCov_unit_zero (S := S1024x2) _ hz2]

/-! ## The context output's buffer -/

/-- At a last point the body copies the accumulator, as it has just stepped it, under a leading unit axis. -/
theorem ctx_C (hc0 : ¬cond0_0 i) (hc1 : cond0_1 i) :
    out0_C_3 c i arg3 harg3 arg4 harg4 arg5 harg5 arg6 harg6 arg7 harg7 hc0 hc1 x0 x1 xs0 = k0_pay4 (accStep x0 x1 xs0) := by
  unfold out0_C_3
  rw [View.read_writes_eq_canon _ _ _ (cover0_C_3 c i arg3 harg3 arg4 harg4 arg5 harg5 arg6 harg6 arg7 harg7 hc0 hc1 x0 x1 xs0)]
  unfold kernelRun0_C
  dsimp only
  sl_unfold_words
  rw [View.canon_unit_zero hz3]
  simp only [View.readAt_eq_ld, harg3.read_unread, harg4.read_unread, harg7.read_unread, View.ld_unit_zero (S := S1024x2) hz2,
    View.readCov_unit_zero (S := S1024x2) _ hz2]

end Cert.KernelIdeal.Pieces

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.FluxBody.lean ====
/-
  The body's arithmetic, one entry at a time, on the extended reals.

  A grid point sees a tile of 1024 row states (two columns `x`, `y` of a `[1, 1024, 1]` block each) and a tile of 1024
  column states (two rows `u`, `v` of a `[1, 1, 1024]` block each). Entry `(p, q)` of the similarity tile is the
  similarity of row state `p` and column state `q`; entry `(p, q)` of the attention tile is its attention entry; and
  the tile's contribution to the context of row `p` is, for each of the two coordinates, the running value plus the
  sum over the tile's 1024 columns of the attention entry times that coordinate of the column state.
-/
import proofs.«104769_j14963666059655_1_alg».proof.Proof.Gen.KernelIdeal.Skeleton
import proofs.«104769_j14963666059655_1_alg».proof.Proof.FluxSpec
import proofs.«104769_j14963666059655_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.Flux Idealize.ShloMosaic Idealize.ShloMosaic.ValueIdx

/-- A column of the row tile, spread along the lanes, reads at `(p, q)` the column's entry of row `p`. -/
theorem col_apply (v : Vec Ideal S1x1024x1 .f32) (p q : Fin 1024) :
    broadcastTo S1024x1024 (shapeCast S1024x1 v shapeCasts_S1x1024x1_S1024x1) broadcasts_S1024x1_S1024x1024 (ix2 p q)
      = v (ix3 (0 : Fin 1) p (0 : Fin 1)) :=
  (Cert.LibKeepdims.broadcastTo_a1_ab_apply _ broadcasts_S1024x1_S1024x1024 p q).trans
    (shapeCast_1ab_ab_apply v shapeCasts_S1x1024x1_S1024x1 p (0 : Fin 1))

/-- A row of the column tile, repeated down the sublanes, reads at `(p, q)` the row's entry of column `q`. -/
theorem row_apply (v : Vec Ideal S1x1x1024 .f32) (p q : Fin 1024) :
    broadcastTo S1024x1024 (shapeCast S1x1024 v shapeCasts_S1x1x1024_S1x1024) broadcasts_S1x1024_S1024x1024 (ix2 p q)
      = v (ix3 (0 : Fin 1) (0 : Fin 1) q) :=
  (broadcastTo_1b_ab_apply _ broadcasts_S1x1024_S1024x1024 p q).trans
    (shapeCast_1ab_ab_apply v shapeCasts_S1x1x1024_S1x1024 (0 : Fin 1) q)

/-- The same row, already squeezed to `[1, 1024]`, repeated down the sublanes. -/
theorem row'_apply (w : FVec Ideal S1x1024 .f32) (p q : Fin 1024) :
    broadcastTo S1024x1024 w broadcasts_S1x1024_S1024x1024 (ix2 p q) = w (ix2 (0 : Fin 1) q) :=
  broadcastTo_1b_ab_apply _ broadcasts_S1x1024_S1024x1024 p q

variable (v3 v5 : Vec Ideal S1x1024x1 .f32) (v7 v9 : Vec Ideal S1x1x1024 .f32)

/-- THE SIMILARITY TILE at `(p, q)`: the similarity of row state `p` and column state `q`. -/
theorem sim_apply (p q : Fin 1024) :
    k0_pay8 (F := Ideal) v3 v5 v7 v9 (ix2 p q)
      = simOf (v3 (ix3 (0 : Fin 1) p (0 : Fin 1))) (v5 (ix3 (0 : Fin 1) p (0 : Fin 1)))
          (v7 (ix3 (0 : Fin 1) (0 : Fin 1) q)) (v9 (ix3 (0 : Fin 1) (0 : Fin 1) q)) := by
  unfold k0_pay8 k0_pay6 k0_pay7 simOf
  simp only [addf_apply, mulf_apply, subf_apply, broadcast_apply]
  rw [col_apply v3 p q, col_apply v5 p q, row_apply v7 p q, row_apply v9 p q]
  rfl

/-- THE ATTENTION TILE at `(p, q)`: the attention entry of that similarity — gate, comparison and select are entrywise. -/
theorem att_apply (p q : Fin 1024) :
    k0_pay1 (F := Ideal) (k0_pay10 v3 v5 v7 v9) (k0_pay11 v3 v5 v7 v9) (k0_pay12 (F := Ideal)) (ix2 p q)
      = attOf (simOf (v3 (ix3 (0 : Fin 1) p (0 : Fin 1))) (v5 (ix3 (0 : Fin 1) p (0 : Fin 1)))
          (v7 (ix3 (0 : Fin 1) (0 : Fin 1) q)) (v9 (ix3 (0 : Fin 1) (0 : Fin 1) q))) := by
  rw [← sim_apply v3 v5 v7 v9 p q]
  rfl

/-- The block the attention store writes is the attention tile under a leading unit axis. -/
theorem att_block_apply (c : IVec S1024x1024 1) (a z : FVec Ideal S1024x1024 .f32) (u : Fin 1) (p q : Fin 1024) :
    k0_pay2 (F := Ideal) c a z (ix3 u p q) = k0_pay1 (F := Ideal) c a z (ix2 p q) := by
  unfold k0_pay2
  exact shapeCast_ab_1ab_apply _ shapeCasts_S1024x1024_S1x1024x1024 u p q

/-! ## The accumulator's step -/

/-- A sum along the lanes of a `[1024, 1024]` tile, read at row `p`: the sum of the row's 1024 entries. -/
theorem lane_sum_apply (w : FVec Ideal S1024x1024 .f32) (p : Fin 1024) :
    multiReduction .add [1] S1024 w 0x00000000#32 reduces_S1024x1024_S1024 (.inl rfl) rfl (ix1 p)
      = ∑ q : Fin 1024, w (ix2 p q) := by
  refine (Ideal.multiReduction_add_single w 0x00000000#32 reduces_S1024x1024_S1024 (.inl rfl) rfl (ix1 p)).trans ?_
  refine Finset.sum_congr rfl fun q _ => congrArg w (funext fun a => ?_)
  match a with
  | ⟨0, _⟩ => rfl
  | ⟨1, _⟩ => rfl

/-- Two columns joined side by side read, at coordinate 0, the first column; -/
theorem join_apply0 (a b : FVec Ideal S1024x1 .f32) (p : Fin 1024) :
    concatenate S1024x2 1 [⟨S1024x1, a⟩, ⟨S1024x1, b⟩] concatenates_S1024x1_S1024x1_S1024x2_d1 (ix2 p (0 : Fin 2))
      = a (ix2 p (0 : Fin 1)) :=
  concatenate_pair_apply_left (t := S1024x2) (s₁ := S1024x1) (s₂ := S1024x1) (1 : Fin 2) a b
    concatenates_S1024x1_S1024x1_S1024x2_d1 (ix2 p (0 : Fin 2)) (show S1024x1.rank = S1024x2.rank from rfl)
    (ix2 p (0 : Fin 1)) (fun ax => by
      match ax with
      | ⟨0, _⟩ => rfl
      | ⟨1, _⟩ => rfl)

/-- and, at coordinate 1, the second. -/
theorem join_apply1 (a b : FVec Ideal S1024x1 .f32) (p : Fin 1024) :
    concatenate S1024x2 1 [⟨S1024x1, a⟩, ⟨S1024x1, b⟩] concatenates_S1024x1_S1024x1_S1024x2_d1 (ix2 p (1 : Fin 2))
      = b (ix2 p (0 : Fin 1)) :=
  concatenate_pair_apply_right (t := S1024x2) (s₁ := S1024x1) (s₂ := S1024x1) (1 : Fin 2) a b
    concatenates_S1024x1_S1024x1_S1024x2_d1 (ix2 p (1 : Fin 2)) (show S1024x1.rank = S1024x2.rank from rfl)
    (show S1024x1.rank = S1024x2.rank from rfl) (ix2 p (0 : Fin 1)) (fun ax hax => by
      match ax with
      | ⟨0, _⟩ => rfl
      | ⟨1, _⟩ => exact absurd rfl hax) rfl

/-- A row sum kept as a column reads, at `(p, 0)`, the sum of row `p`. -/
theorem kept_sum_apply (w : FVec Ideal S1024x1024 .f32) (p : Fin 1024) :
    shapeCast S1024x1 (multiReduction .add [1] S1024 w 0x00000000#32 reduces_S1024x1024_S1024 (.inl rfl) rfl)
        shapeCasts_S1024_S1024x1 (ix2 p (0 : Fin 1))
      = ∑ q : Fin 1024, w (ix2 p q) :=
  (Cert.LibKeepdims.shapeCast_a_a1_apply _ shapeCasts_S1024_S1024x1 p (0 : Fin 1)).trans (lane_sum_apply w p)

variable (w8 w10 : FVec Ideal S1x1024 .f32) (c : IVec S1024x1024 1) (a z : FVec Ideal S1024x1024 .f32)
  (acc : Vec Ideal S1024x2 .f32)

/-- THE ACCUMULATOR'S STEP, coordinate 0: what was there plus the sum over the tile's columns of the attention entry
    times the `u` of the column state. -/
theorem acc_apply0 (p : Fin 1024) :
    k0_pay3 (F := Ideal) w8 w10 c a z acc (ix2 p (0 : Fin 2))
      = acc (ix2 p (0 : Fin 2)) + ∑ q : Fin 1024, k0_pay1 (F := Ideal) c a z (ix2 p q) * w8 (ix2 (0 : Fin 1) q) := by
  unfold k0_pay3
  simp only [shapeCast_self, addf_apply]
  rw [join_apply0, kept_sum_apply]
  simp only [mulf_apply, row'_apply]

/-- THE ACCUMULATOR'S STEP, coordinate 1: the same with the `v` of the column state. -/
theorem acc_apply1 (p : Fin 1024) :
    k0_pay3 (F := Ideal) w8 w10 c a z acc (ix2 p (1 : Fin 2))
      = acc (ix2 p (1 : Fin 2)) + ∑ q : Fin 1024, k0_pay1 (F := Ideal) c a z (ix2 p q) * w10 (ix2 (0 : Fin 1) q) := by
  unfold k0_pay3
  simp only [shapeCast_self, addf_apply]
  rw [join_apply1, kept_sum_apply]
  simp only [mulf_apply, row'_apply]

end Cert.KernelIdeal.Body

end
-- ==== Proof.FluxSums.lean ====
/-
  A sum over 8192 columns taken tile by tile: eight tiles of 1024 columns each, column `1024 s + q` being column `q`
  of tile `s`. Addition in a commutative monoid may be regrouped freely, so the sum of the eight tile sums is the sum
  over all columns; on the extended reals this needs no finiteness.
-/
import Idealize.ShloMosaic.Lib.ValueIdx

open scoped BigOperators

namespace Cert.Flux

/-- Column `q` of tile `s`, among 8192 columns. The tile number is reduced modulo 8 so that the column exists for
    every natural number `s`; for `s < 8` it is column `1024 s + q`. -/
def tileCol (s : Nat) (q : Fin 1024) : Fin 8192 :=
  ⟨(s % 8) * 1024 + q.val, by have := Nat.mod_lt s (show 0 < 8 by decide); have := q.isLt; omega⟩

theorem tileCol_val (s : Nat) (q : Fin 1024) : (tileCol s q).val = (s % 8) * 1024 + q.val := rfl

/-- A pair (tile, column in the tile) is a column, and every column is exactly one such pair. -/
def tilePair : Fin 8 × Fin 1024 ≃ Fin 8192 where
  toFun x := tileCol x.1.val x.2
  invFun n := (⟨n.val / 1024, by have := n.isLt; omega⟩, ⟨n.val % 1024, Nat.mod_lt _ (by decide)⟩)
  left_inv x := by
    obtain ⟨a, b⟩ := x
    have ha := a.isLt
    have hb := b.isLt
    refine Prod.ext (Fin.ext ?_) (Fin.ext ?_)
    · show ((a.val % 8) * 1024 + b.val) / 1024 = a.val
      omega
    · show ((a.val % 8) * 1024 + b.val) % 1024 = b.val
      omega
  right_inv n := by
    have hn := n.isLt
    refine Fin.ext ?_
    show ((n.val / 1024) % 8) * 1024 + n.val % 1024 = n.val
    omega

/-- The sum of the eight tile sums is the sum over all 8192 columns. -/
theorem sum_tiles {M : Type*} [AddCommMonoid M] (f : Fin 8192 → M) :
    ∑ s ∈ Finset.range 8, ∑ q : Fin 1024, f (tileCol s q) = ∑ n : Fin 8192, f n := by
  rw [Finset.sum_range (fun s => ∑ q : Fin 1024, f (tileCol s q))]
  rw [← Fintype.sum_prod_type' (fun (s : Fin 8) (q : Fin 1024) => f (tileCol s.val q))]
  exact Fintype.sum_equiv tilePair _ _ (fun _ => rfl)

end Cert.Flux
-- ==== Proof.FluxTile.lean ====
/-
  One grid point's work in terms of the states.

  Suppose a point's row block holds the states of row tile `r` of batch `b` and its column block, which is laid out
  coordinate-major, those of column tile `c`. Then the attention tile it leaves is the specification's attention matrix on
  rows `1024 r + p` and columns `1024 c + q`, and its step of the accumulator adds, for row `p` and coordinate `k`, the
  sum over the tile's 1024 columns of that attention entry times coordinate `k` of the column's state.
-/
import proofs.«104769_j14963666059655_1_alg».proof.Proof.FluxPieces
import proofs.«104769_j14963666059655_1_alg».proof.Proof.FluxBody
import proofs.«104769_j14963666059655_1_alg».proof.Proof.FluxSums

noncomputable section

open scoped BigOperators

namespace Cert.KernelIdeal.Tile

open Cert.KernelIdeal Cert.KernelIdeal.Gen Cert.KernelIdeal.Pieces Cert.KernelIdeal.Body Cert.Flux
open Idealize.ShloMosaic Idealize.ShloMosaic.ValueIdx

variable (x0 : Vec Ideal S1x1024x2 .f32) (x1 : Vec Ideal S1x2x1024 .f32)

/-- Column 0 of the row block at row `p`. -/
theorem ldX_apply (p : Fin 1024) : ldX x0 (ix3 (0 : Fin 1) p (0 : Fin 1)) = x0 (ix3 (0 : Fin 1) p (0 : Fin 2)) :=
  congrArg x0 (funext fun a => Fin.ext (by
    match a with
    | ⟨0, _⟩ => rfl
    | ⟨1, _⟩ => show 0 + 1 * p.val = p.val; omega
    | ⟨2, _⟩ => rfl))

/-- Column 1 of the row block at row `p`. -/
theorem ldY_apply (p : Fin 1024) : ldY x0 (ix3 (0 : Fin 1) p (0 : Fin 1)) = x0 (ix3 (0 : Fin 1) p (1 : Fin 2)) :=
  congrArg x0 (funext fun a => Fin.ext (by
    match a with
    | ⟨0, _⟩ => rfl
    | ⟨1, _⟩ => show 0 + 1 * p.val = p.val; omega
    | ⟨2, _⟩ => rfl))

/-- Row 0 of the column block at column `q`. -/
theorem ldU_apply (q : Fin 1024) : ldU x1 (ix3 (0 : Fin 1) (0 : Fin 1) q) = x1 (ix3 (0 : Fin 1) (0 : Fin 2) q) :=
  congrArg x1 (funext fun a => Fin.ext (by
    match a with
    | ⟨0, _⟩ => rfl
    | ⟨1, _⟩ => rfl
    | ⟨2, _⟩ => show 0 + 1 * q.val = q.val; omega))

/-- Row 1 of the column block at column `q`. -/
theorem ldV_apply (q : Fin 1024) : ldV x1 (ix3 (0 : Fin 1) (0 : Fin 1) q) = x1 (ix3 (0 : Fin 1) (1 : Fin 2) q) :=
  congrArg x1 (funext fun a => Fin.ext (by
    match a with
    | ⟨0, _⟩ => rfl
    | ⟨1, _⟩ => rfl
    | ⟨2, _⟩ => show 0 + 1 * q.val = q.val; omega))

variable (S : SState.Idx → EReal) (b : Fin 4) (r c : Nat)
  (hx0 : ∀ (p : Fin 1024) (k : Fin 2), x0 (ix3 (0 : Fin 1) p k) = S (ix3 b (tileCol r p) k))
  (hx1 : ∀ (k : Fin 2) (q : Fin 1024), x1 (ix3 (0 : Fin 1) k q) = S (ix3 b (tileCol c q) k))

include hx0 hx1 in
/-- The attention tile's entry `(p, q)` is the attention matrix's entry on row `1024 r + p` and column `1024 c + q`. -/
theorem att_entry (p q : Fin 1024) :
    k0_pay1 (F := Ideal) (k0_pay10 (ldX x0) (ldY x0) (ldU x1) (ldV x1)) (k0_pay11 (ldX x0) (ldY x0) (ldU x1) (ldV x1))
        (k0_pay12 (F := Ideal)) (ix2 p q)
      = attention S (ix3 b (tileCol r p) (tileCol c q)) := by
  rw [att_apply, ldX_apply, ldY_apply, ldU_apply, ldV_apply, hx0, hx0, hx1, hx1]
  rfl

include hx0 hx1 in
/-- THE ATTENTION BLOCK a point leaves, at `(u, p, q)`. -/
theorem attBlock_apply (u : Fin 1) (p q : Fin 1024) :
    attBlock (F := Ideal) x0 x1 (ix3 u p q) = attention S (ix3 b (tileCol r p) (tileCol c q)) :=
  (att_block_apply _ _ _ u p q).trans (att_entry x0 x1 S b r c hx0 hx1 p q)

/-- The squeezed row 0 of the column block at column `q`. -/
theorem sqU_apply (q : Fin 1024) :
    k0_pay6 (F := Ideal) (ldU x1) (ix2 (0 : Fin 1) q) = x1 (ix3 (0 : Fin 1) (0 : Fin 2) q) :=
  (shapeCast_1ab_ab_apply (ldU x1) shapeCasts_S1x1x1024_S1x1024 (0 : Fin 1) q).trans (ldU_apply x1 q)

/-- The squeezed row 1 of the column block at column `q`. -/
theorem sqV_apply (q : Fin 1024) :
    k0_pay7 (F := Ideal) (ldV x1) (ix2 (0 : Fin 1) q) = x1 (ix3 (0 : Fin 1) (1 : Fin 2) q) :=
  (shapeCast_1ab_ab_apply (ldV x1) shapeCasts_S1x1x1024_S1x1024 (0 : Fin 1) q).trans (ldV_apply x1 q)

include hx0 hx1 in
/-- THE ACCUMULATOR'S STEP at `(p, k)`: what was there plus the tile's context sum for row `p`, coordinate `k`. -/
theorem accStep_apply (acc : Vec Ideal S1024x2 .f32) (p : Fin 1024) (k : Fin 2) :
    accStep (F := Ideal) x0 x1 acc (ix2 p k)
      = acc (ix2 p k) + ∑ q : Fin 1024, attention S (ix3 b (tileCol r p) (tileCol c q)) * S (ix3 b (tileCol c q) k) := by
  match k with
  | ⟨0, _⟩ =>
    refine (acc_apply0 _ _ _ _ _ acc p).trans (congrArg (acc (ix2 p (0 : Fin 2)) + ·) ?_)
    refine Finset.sum_congr rfl fun q _ => ?_
    rw [att_entry x0 x1 S b r c hx0 hx1 p q, sqU_apply, hx1]
    rfl
  | ⟨1, _⟩ =>
    refine (acc_apply1 _ _ _ _ _ acc p).trans (congrArg (acc (ix2 p (1 : Fin 2)) + ·) ?_)
    refine Finset.sum_congr rfl fun q _ => ?_
    rw [att_entry x0 x1 S b r c hx0 hx1 p q, sqV_apply, hx1]
    rfl

end Cert.KernelIdeal.Tile

end
-- ==== Proof.FluxBlocks.lean ====
/-
  Where a grid point's blocks sit in their arrays.

  The grid has 4 x 8 x 8 = 256 points; point `t` is batch `t / 64`, row tile `(t / 8) % 8` and column tile `t % 8`. Its
  row block is rows `1024 (t / 8 % 8) + p` of the states of its batch; its column block, cut from the states
  transposed to coordinate-major order, is columns `1024 (t % 8) + q`; its attention block is that rectangle of the
  attention matrix; its context block is those rows of the context.
-/
import proofs.«104769_j14963666059655_1_alg».proof.Proof.Gen.KernelIdeal.Value
import proofs.«104769_j14963666059655_1_alg».proof.Proof.FluxSpec
import proofs.«104769_j14963666059655_1_alg».proof.Proof.FluxSums
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.Flux
open Idealize.ShloMosaic Idealize.ShloMosaic.ValueIdx Idealize.ShloMosaic.TcCoe Idealize.SL.Sem
open Idealize.ShloMosaic.StableHlo

variable (m : (ℓ : Loc nD τ sig) → Buf (Elt Ideal) ℓ)

/-- The states as launched, on core `c`. -/
abbrev states (c : Dev nD) : SState.Idx → EReal := m ((c : Thread nD τ).loc main_arg0)

/-- The batch of point `n`. -/
def batchOf (n : Nat) : Fin 4 := ⟨n / 64 % 4, Nat.mod_lt _ (by decide)⟩

theorem batchOf_val (n : Nat) : (batchOf n).val = n / 64 % 4 := rfl

/-- The four index maps, decided once over the grid's 256 points. -/
theorem idx_facts : ∀ t : Fin cfg0.N,
    win0_0.index t (0 : Fin 3) = t.val / 64 % 4 ∧ win0_0.index t (1 : Fin 3) = t.val / 8 % 8 ∧ win0_0.index t (2 : Fin 3) = 0
    ∧ win0_1.index t (0 : Fin 3) = t.val / 64 % 4 ∧ win0_1.index t (1 : Fin 3) = 0 ∧ win0_1.index t (2 : Fin 3) = t.val % 8
    ∧ win0_2.index t (0 : Fin 3) = t.val / 64 % 4 ∧ win0_2.index t (1 : Fin 3) = t.val / 8 % 8 ∧ win0_2.index t (2 : Fin 3) = t.val % 8
    ∧ win0_3.index t (0 : Fin 3) = t.val / 64 % 4 ∧ win0_3.index t (1 : Fin 3) = t.val / 8 % 8 ∧ win0_3.index t (2 : Fin 3) = 0 :=
  (by decide +kernel : ∀ t : Fin grid0.N, _)

/-- Entry `(u, p, k)` of point `t`'s row block is entry `(batch, 1024 (t / 8 % 8) + p, k)` of the states. -/
theorem rowBlock_emb (t : Fin cfg0.N) (u : Fin 1) (p : Fin 1024) (k : Fin 2) :
    ((cfg0.win 0).blk t).view.emb (ix3 u p k) = ix3 (batchOf t.val) (tileCol (t.val / 8) p) k := by
  obtain ⟨e0, e1, e2, -⟩ := idx_facts t
  funext a; apply Fin.ext
  have hu := u.isLt
  match a with
  | ⟨0, _⟩ => show win0_0.index t (0 : Fin 3) * 1 + 1 * u.val = t.val / 64 % 4; omega
  | ⟨1, _⟩ => show win0_0.index t (1 : Fin 3) * 1024 + 1 * p.val = (t.val / 8 % 8) * 1024 + p.val; omega
  | ⟨2, _⟩ => show win0_0.index t (2 : Fin 3) * 2 + 1 * k.val = k.val; omega

/-- Entry `(u, k, q)` of point `t`'s column block is entry `(batch, k, 1024 (t % 8) + q)` of the transposed states. -/
theorem colBlock_emb (t : Fin cfg0.N) (u : Fin 1) (k : Fin 2) (q : Fin 1024) :
    ((cfg0.win 1).blk t).view.emb (ix3 u k q) = ix3 (batchOf t.val) k (tileCol t.val q) := by
  obtain ⟨-, -, -, e0, e1, e2, -⟩ := idx_facts t
  funext a; apply Fin.ext
  have hu := u.isLt
  match a with
  | ⟨0, _⟩ => show win0_1.index t (0 : Fin 3) * 1 + 1 * u.val = t.val / 64 % 4; omega
  | ⟨1, _⟩ => show win0_1.index t (1 : Fin 3) * 2 + 1 * k.val = k.val; omega
  | ⟨2, _⟩ => show win0_1.index t (2 : Fin 3) * 1024 + 1 * q.val = (t.val % 8) * 1024 + q.val; omega

/-- Entry `(u, p, q)` of point `t`'s attention block is entry `(batch, 1024 (t / 8 % 8) + p, 1024 (t % 8) + q)`. -/
theorem attnBlock_emb (t : Fin cfg0.N) (u : Fin 1) (p q : Fin 1024) :
    ((cfg0.win 2).blk t).view.emb (ix3 u p q) = ix3 (batchOf t.val) (tileCol (t.val / 8) p) (tileCol t.val q) := by
  obtain ⟨-, -, -, -, -, -, e0, e1, e2, -⟩ := idx_facts t
  funext a; apply Fin.ext
  have hu := u.isLt
  match a with
  | ⟨0, _⟩ => show win0_2.index t (0 : Fin 3) * 1 + 1 * u.val = t.val / 64 % 4; omega
  | ⟨1, _⟩ => show win0_2.index t (1 : Fin 3) * 1024 + 1 * p.val = (t.val / 8 % 8) * 1024 + p.val; omega
  | ⟨2, _⟩ => show win0_2.index t (2 : Fin 3) * 1024 + 1 * q.val = (t.val % 8) * 1024 + q.val; omega

/-- Entry `(u, p, k)` of point `t`'s context block is entry `(batch, 1024 (t / 8 % 8) + p, k)` of the context. -/
theorem ctxBlock_emb (t : Fin cfg0.N) (u : Fin 1) (p : Fin 1024) (k : Fin 2) :
    ((cfg0.win 3).blk t).view.emb (ix3 u p k) = ix3 (batchOf t.val) (tileCol (t.val / 8) p) k := by
  obtain ⟨-, -, -, -, -, -, -, -, -, e0, e1, e2⟩ := idx_facts t
  funext a; apply Fin.ext
  have hu := u.isLt
  match a with
  | ⟨0, _⟩ => show win0_3.index t (0 : Fin 3) * 1 + 1 * u.val = t.val / 64 % 4; omega
  | ⟨1, _⟩ => show win0_3.index t (1 : Fin 3) * 1024 + 1 * p.val = (t.val / 8 % 8) * 1024 + p.val; omega
  | ⟨2, _⟩ => show win0_3.index t (2 : Fin 3) * 2 + 1 * k.val = k.val; omega

/-- The region finds, in the buffer its column window is cut from, the states transposed to coordinate-major order. -/
theorem V_main_v0 (c : Dev nD) :
    (V m c main_v0 : S4x2x8192.Idx → EReal)
      = transpose S4x2x8192 [0, 2, 1] (m ((c : Thread nD τ).loc main_arg0)) transposes_S4x8192x2_S4x2x8192_0_2_1 := by
  dsimp only [V, hostOps0]
  after_results

/-- POINT `t`'S ROW BLOCK holds the states of its batch's row tile. -/
theorem rowBlock_apply (c : Dev nD) (t : Fin cfg0.N) (p : Fin 1024) (k : Fin 2) :
    (iblk m c 0 t : Vec Ideal S1x1024x2 .f32) (ix3 (0 : Fin 1) p k)
      = states m c (ix3 (batchOf t.val) (tileCol (t.val / 8) p) k) := by
  unfold iblk
  rw [View.read_apply]
  show V m c main_arg0 (((cfg0.win 0).blk t).view.emb (ix3 (0 : Fin 1) p k)) = _
  rw [rowBlock_emb, V_main_arg0]

/-- POINT `t`'S COLUMN BLOCK holds, coordinate-major, the states of its batch's column tile. -/
theorem colBlock_apply (c : Dev nD) (t : Fin cfg0.N) (k : Fin 2) (q : Fin 1024) :
    (iblk m c 1 t : Vec Ideal S1x2x1024 .f32) (ix3 (0 : Fin 1) k q)
      = states m c (ix3 (batchOf t.val) (tileCol t.val q) k) := by
  unfold iblk
  rw [View.read_apply]
  show V m c main_v0 (((cfg0.win 1).blk t).view.emb (ix3 (0 : Fin 1) k q)) = _
  rw [colBlock_emb, V_main_v0]
  exact transpose_ix3_021_apply _ _ (batchOf t.val) k (tileCol t.val q)

end Cert.KernelIdeal.Blocks

end
-- ==== Proof.FluxAttn.lean ====
/-
  The attention array after the run is the attention matrix of the states.

  Whatever point `t` is — first, middle or last of its row of the grid — the block it writes back is the attention
  tile of its two input blocks, which hold the states of its row tile and of its column tile; so it is block `t` of
  the attention matrix. The 256 blocks fill the array: entry `(b, i, j)` lies in the block of the point of batch `b`,
  row tile `i / 1024` and column tile `j / 1024`.
-/
import proofs.«104769_j14963666059655_1_alg».proof.Proof.FluxTile
import proofs.«104769_j14963666059655_1_alg».proof.Proof.FluxBlocks

set_option maxRecDepth 16384

noncomputable section

namespace Cert.KernelIdeal.Attn

open Cert.KernelIdeal Cert.KernelIdeal.Gen Cert.KernelIdeal.Pieces Cert.KernelIdeal.Tile Cert.KernelIdeal.Blocks Cert.Flux
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Point `t`'s two input blocks, at their literal types. -/
abbrev xrow (c : Dev nD) (t : Fin cfg0.N) : Vec Ideal S1x1024x2 .f32 := iblk m c 0 t
abbrev xcol (c : Dev nD) (t : Fin cfg0.N) : Vec Ideal S1x2x1024 .f32 := iblk m c 1 t

/-- What point `t` writes back to the attention array is the attention tile of its input blocks, whichever case it is. -/
theorem flushed_tile (c : Dev nD) (t : Fin cfg0.N) :
    (dats m 0 c).flushed 2 t = (cfg0.win 2).cut (grid0.coords t) (attBlock (xrow m c t) (xcol m c t)) := by
  have hN : t.val < 256 := lt_of_lt_of_eq t.isLt (show cfg0.N = 256 from N_0)
  by_cases h0 : t.val % 8 = 0
  · have h1 : ¬t.val % 8 = 7 := by omega
    exact (Cert.KernelIdeal.Value.flushed2_A m c t h0 h1).trans (congrArg ((cfg0.win 2).cut (grid0.coords t))
      (att_A c (grid0.coords t) (ms0_0 t) (hs0_0 t) (ms0_1 t) (hs0_1 t) (ms0_2 t) (hs0_2 t) (ms0_3 t) (hs0_3 t) scM0_0
        (Memref.isWhole_whole _) (xrow m c t) (xcol m c t) ((hcond0_0 t).mpr h0) (fun h => h1 ((hcond0_1 t).mp h))))
  · by_cases h1 : t.val % 8 = 7
    · exact (Cert.KernelIdeal.Value.flushed2_C m c t h0 h1).trans (congrArg ((cfg0.win 2).cut (grid0.coords t))
        (att_C c (grid0.coords t) (ms0_0 t) (hs0_0 t) (ms0_1 t) (hs0_1 t) (ms0_2 t) (hs0_2 t) (ms0_3 t) (hs0_3 t) scM0_0
          (Memref.isWhole_whole _) (xrow m c t) (xcol m c t)
          (outsAt0 m c (t.val - 1) (Nat.lt_of_le_of_lt (Nat.sub_le _ _) t.isLt)).2.2
          (fun h => h0 ((hcond0_0 t).mp h)) ((hcond0_1 t).mpr h1)))
    · exact (Cert.KernelIdeal.Value.flushed2_B m c t h0 h1).trans (congrArg ((cfg0.win 2).cut (grid0.coords t))
        (att_B c (grid0.coords t) (ms0_0 t) (hs0_0 t) (ms0_1 t) (hs0_1 t) (ms0_2 t) (hs0_2 t) (ms0_3 t) (hs0_3 t) scM0_0
          (Memref.isWhole_whole _) (xrow m c t) (xcol m c t)
          (outsAt0 m c (t.val - 1) (Nat.lt_of_le_of_lt (Nat.sub_le _ _) t.isLt)).2.2
          (fun h => h0 ((hcond0_0 t).mp h)) (fun h => h1 ((hcond0_1 t).mp h))))

/-- WHAT POINT `t` WRITES BACK is block `t` of the attention matrix of the states. -/
theorem flushed_attn (c : Dev nD) (t : Fin cfg0.N) :
    (dats m 0 c).flushed 2 t = ((cfg0.win 2).blk t).view.read (Elt Ideal) (attention (states m c)) := by
  rw [flushed_tile]
  refine funext fun (y : S1x1024x1024.Idx) => ?_
  obtain ⟨u, p, q, rfl⟩ : ∃ (u : Fin 1) (p q : Fin 1024), y = ix3 u p q := ⟨y 0, y 1, y 2, eq_ix3 y⟩
  show attBlock (xrow m c t) (xcol m c t) (ix3 u p q)
    = attention (states m c) (((cfg0.win 2).blk t).view.emb (ix3 u p q))
  rw [attnBlock_emb]
  exact attBlock_apply (xrow m c t) (xcol m c t) (states m c) (batchOf t.val) (t.val / 8) t.val
    (fun p k => rowBlock_apply m c t p k) (fun k q => colBlock_apply m c t k q) u p q

/-- An entry of the attention array is in point `t`'s block iff each coordinate is in the block's range on its axis. -/
theorem mem_attnBlock (t : Fin cfg0.N) (i : S4x8192x8192.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v1_0).slice (win0_2.rect t)).set ↔ _
  rw [View.set_slice_whole, Rect.mem_set_unit]
  exact Iff.rfl

/-- THE ATTENTION ARRAY after the run: the attention matrix of the states. -/
theorem final_attn (c : Dev nD) : (dats m 0 c).arrAt 2 cfg0.N = attention (states m c) :=
  (dats m 0 c).arrAt_eq_of_cover 2 (attention (states m c)) (fun t _ => flushed_attn m c t) fun i => by
    have hi0 : (i 0).val < 4 := (i 0).isLt
    have hi1 : (i 1).val < 8192 := (i 1).isLt
    have hi2 : (i 2).val < 8192 := (i 2).isLt
    have hN : cfg0.N = 256 := N_0
    have ht : (i 0).val * 64 + (i 1).val / 1024 * 8 + (i 2).val / 1024 < cfg0.N := by rw [hN]; omega
    refine ⟨⟨(i 0).val * 64 + (i 1).val / 1024 * 8 + (i 2).val / 1024, ht⟩, flush0_2 _, ?_⟩
    rw [mem_attnBlock]
    obtain ⟨-, -, -, -, -, -, e0, e1, e2, -⟩ := idx_facts ⟨(i 0).val * 64 + (i 1).val / 1024 * 8 + (i 2).val / 1024, ht⟩
    simp only at e0 e1 e2
    intro a
    match a with
    | ⟨0, _⟩ =>
      show win0_2.index _ (0 : Fin 3) * 1 ≤ (i 0).val ∧ (i 0).val < win0_2.index _ (0 : Fin 3) * 1 + 1
      omega
    | ⟨1, _⟩ =>
      show win0_2.index _ (1 : Fin 3) * 1024 ≤ (i 1).val ∧ (i 1).val < win0_2.index _ (1 : Fin 3) * 1024 + 1024
      omega
    | ⟨2, _⟩ =>
      show win0_2.index _ (2 : Fin 3) * 1024 ≤ (i 2).val ∧ (i 2).val < win0_2.index _ (2 : Fin 3) * 1024 + 1024
      omega

end Cert.KernelIdeal.Attn

end
-- ==== Proof.FluxCtx.lean ====
/-
  The context array after the run is the context of the states.

  Along a row of the grid — eight points `8 u, …, 8 u + 7` sharing a batch and a row tile, one per column tile — the
  accumulator is set to zero at the first point and each point adds its tile's context sums; so after the last point it
  holds, for row `p` and coordinate `k`, zero plus the sum over the eight tiles of the sum over each tile's 1024
  columns of attention entry times state coordinate: the sum over all 8192 columns, which is the context. The last
  point copies it into the context block, and only last points write that block back; the 32 blocks they write fill
  the array.
-/
import proofs.«104769_j14963666059655_1_alg».proof.Proof.FluxAttn

set_option maxRecDepth 16384

noncomputable section

open scoped BigOperators

namespace Cert.KernelIdeal.Ctx

open Cert.KernelIdeal Cert.KernelIdeal.Gen Cert.KernelIdeal.Pieces Cert.KernelIdeal.Tile Cert.KernelIdeal.Blocks
open Cert.KernelIdeal.Attn Cert.Flux
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- What point `n`'s tile adds to the context of row `p` of its row tile, coordinate `k`. -/
def addendAt (S : SState.Idx → EReal) (n : Nat) (p : Fin 1024) (k : Fin 2) : EReal :=
  ∑ q : Fin 1024, attention S (ix3 (batchOf n) (tileCol (n / 8) p) (tileCol n q)) * S (ix3 (batchOf n) (tileCol n q) k)

/-- The same as a block over the accumulator's indices. -/
def addend (S : SState.Idx → EReal) (n : Nat) : S1024x2.Idx → EReal := fun y => addendAt S n (y 0) (y 1)

/-- ONE STEP of the accumulator at point `t`: what it held plus the point's addend. -/
theorem step_apply (c : Dev nD) (t : Fin cfg0.N) (acc : Vec Ideal S1024x2 .f32) (y : S1024x2.Idx) :
    accStep (xrow m c t) (xcol m c t) acc y = acc y + addend (states m c) t.val y := by
  obtain ⟨p, k, rfl⟩ : ∃ (p : Fin 1024) (k : Fin 2), y = ix2 p k := ⟨y 0, y 1, eq_ix2 y⟩
  exact accStep_apply (xrow m c t) (xcol m c t) (states m c) (batchOf t.val) (t.val / 8) t.val
    (fun p k => rowBlock_apply m c t p k) (fun k q => colBlock_apply m c t k q) acc p k

/-- The block the first point of a row stores into the accumulator before stepping it is zero. -/
theorem zero_block_apply (y : S1024x2.Idx) : k0_pay5 (F := Ideal) y = 0 := by
  unfold k0_pay5
  rw [shapeCast_self]
  exact Ideal.ofBits_zero_f32

/-- At the first point of a row the accumulator is stepped from the zero block, whatever it held. -/
theorem scAt_first (c : Dev nD) (n : Nat) (h : n < cfg0.N) (h0 : n % 8 = 0) (acc : Vec Ideal S1024x2 .f32) :
    Cert.KernelIdeal.Value.scAt0_0 m c n h acc
      = accStep (xrow m c ⟨n, h⟩) (xcol m c ⟨n, h⟩) (k0_pay5 (F := Ideal)) := by
  have h1 : ¬n % 8 = 7 := by omega
  unfold Cert.KernelIdeal.Value.scAt0_0
  rw [dif_pos h0, dif_neg h1]
  exact acc_A c (grid0.coords (⟨n, h⟩ : Fin cfg0.N)) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) scM0_0 (Memref.isWhole_whole _)
    (xrow m c ⟨n, h⟩) (xcol m c ⟨n, h⟩) ((hcond0_0 (⟨n, h⟩ : Fin cfg0.N)).mpr h0)
    (fun hh => h1 ((hcond0_1 (⟨n, h⟩ : Fin cfg0.N)).mp hh))

/-- At every other point it is stepped from what the point before left. -/
theorem scAt_later (c : Dev nD) (n : Nat) (h : n < cfg0.N) (h0 : ¬n % 8 = 0) (acc : Vec Ideal S1024x2 .f32) :
    Cert.KernelIdeal.Value.scAt0_0 m c n h acc = accStep (xrow m c ⟨n, h⟩) (xcol m c ⟨n, h⟩) acc := by
  unfold Cert.KernelIdeal.Value.scAt0_0
  by_cases h1 : n % 8 = 7
  · rw [dif_neg h0, dif_pos h1]
    exact acc_C c (grid0.coords (⟨n, h⟩ : Fin cfg0.N)) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) scM0_0 (Memref.isWhole_whole _)
      (xrow m c ⟨n, h⟩) (xcol m c ⟨n, h⟩) acc (fun hh => h0 ((hcond0_0 (⟨n, h⟩ : Fin cfg0.N)).mp hh))
      ((hcond0_1 (⟨n, h⟩ : Fin cfg0.N)).mpr h1)
  · rw [dif_neg h0, dif_neg h1]
    exact acc_B c (grid0.coords (⟨n, h⟩ : Fin cfg0.N)) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) scM0_0 (Memref.isWhole_whole _)
      (xrow m c ⟨n, h⟩) (xcol m c ⟨n, h⟩) acc (fun hh => h0 ((hcond0_0 (⟨n, h⟩ : Fin cfg0.N)).mp hh))
      (fun hh => h1 ((hcond0_1 (⟨n, h⟩ : Fin cfg0.N)).mp hh))

/-- THE ACCUMULATOR AFTER A LAST POINT `t` holds zero plus the eight addends of `t`'s row of the grid. -/
theorem scratch_last (c : Dev nD) (t : Fin cfg0.N) (h1 : t.val % 8 = 7) (y : S1024x2.Idx) :
    (outsAt0 m c t.val t.isLt).2.2 y
      = 0 + ∑ s ∈ Finset.range 8, addend (states m c) (8 * (t.val / 8) + s) y := by
  have hN : cfg0.N = 256 := N_0
  have hlt : 8 * (t.val / 8) + t.val % 8 < cfg0.N := by have := t.isLt; have := Nat.div_add_mod t.val 8; omega
  rw [Cert.KernelIdeal.Value.soutsAt0_0_eq m c t]
  have key := Pipeline.accAt_add_apply (ι := S1024x2.Idx) (β := EReal)
    (fun n h => Cert.KernelIdeal.Value.scAt0_0 m c n h (VS0_0.read (Elt Ideal) VS0_0.junk))
    (Cert.KernelIdeal.Value.scAt0_0 m c) (fun _ => 0) (addend (states m c)) (8 * (t.val / 8)) 7
    (fun h i => by
      show Cert.KernelIdeal.Value.scAt0_0 m c (8 * (t.val / 8)) h _ i = _
      rw [scAt_first m c _ h (by omega), step_apply m c ⟨8 * (t.val / 8), h⟩, zero_block_apply])
    (fun n h acc i hb he => by
      rw [scAt_later m c n h (by omega) acc, step_apply m c ⟨n, h⟩])
    (t.val % 8) (by omega) hlt y
  rw [key, h1]

/-- The eight addends of a row of the grid, at row `p` and coordinate `k`, sum to the context. -/
theorem addends_sum (S : SState.Idx → EReal) (t : Nat) (h1 : t % 8 = 7) (p : Fin 1024) (k : Fin 2) :
    ∑ s ∈ Finset.range 8, addend S (8 * (t / 8) + s) (ix2 p k)
      = context S (ix3 (batchOf t) (tileCol (t / 8) p) k) := by
  show _ = ∑ j : Fin 8192, attention S (ix3 (batchOf t) (tileCol (t / 8) p) j) * S (ix3 (batchOf t) j k)
  rw [← sum_tiles (fun j : Fin 8192 => attention S (ix3 (batchOf t) (tileCol (t / 8) p) j) * S (ix3 (batchOf t) j k))]
  refine Finset.sum_congr rfl fun s hs => ?_
  have hs8 : s < 8 := Finset.mem_range.mp hs
  have eb : batchOf (8 * (t / 8) + s) = batchOf t := Fin.ext (by
    show (8 * (t / 8) + s) / 64 % 4 = t / 64 % 4; omega)
  have er : tileCol ((8 * (t / 8) + s) / 8) p = tileCol (t / 8) p := Fin.ext (by
    show ((8 * (t / 8) + s) / 8 % 8) * 1024 + p.val = (t / 8 % 8) * 1024 + p.val; omega)
  have ec : ∀ q : Fin 1024, tileCol (8 * (t / 8) + s) q = tileCol s q := fun q => Fin.ext (by
    show ((8 * (t / 8) + s) % 8) * 1024 + q.val = (s % 8) * 1024 + q.val; omega)
  show addendAt S (8 * (t / 8) + s) p k = _
  unfold addendAt
  rw [eb, er]
  exact Finset.sum_congr rfl fun q _ => by rw [ec q]

/-- What a last point `t` writes back to the context array is the accumulator as it leaves it, under a unit axis. -/
theorem flushed_copy (c : Dev nD) (t : Fin cfg0.N) (h0 : ¬t.val % 8 = 0) (h1 : t.val % 8 = 7) :
    (dats m 0 c).flushed 3 t
      = (cfg0.win 3).cut (grid0.coords t) (k0_pay4 (F := Ideal) ((outsAt0 m c t.val t.isLt).2.2)) := by
  have e2 : (outsAt0 m c t.val t.isLt).2.2
      = accStep (xrow m c t) (xcol m c t) (outsAt0 m c (t.val - 1) (Nat.lt_of_le_of_lt (Nat.sub_le _ _) t.isLt)).2.2 := by
    rw [outsAt0_C m c t h0 h1]
    dsimp only
    exact acc_C c (grid0.coords t) (ms0_0 t) (hs0_0 t) (ms0_1 t) (hs0_1 t) (ms0_2 t) (hs0_2 t) (ms0_3 t) (hs0_3 t) scM0_0
      (Memref.isWhole_whole _) (xrow m c t) (xcol m c t)
      (outsAt0 m c (t.val - 1) (Nat.lt_of_le_of_lt (Nat.sub_le _ _) t.isLt)).2.2
      (fun h => h0 ((hcond0_0 t).mp h)) ((hcond0_1 t).mpr h1)
  rw [e2]
  exact (Cert.KernelIdeal.Value.flushed3_C m c t h0 h1).trans (congrArg ((cfg0.win 3).cut (grid0.coords t))
    (ctx_C c (grid0.coords t) (ms0_0 t) (hs0_0 t) (ms0_1 t) (hs0_1 t) (ms0_2 t) (hs0_2 t) (ms0_3 t) (hs0_3 t) scM0_0
      (Memref.isWhole_whole _) (xrow m c t) (xcol m c t)
      (outsAt0 m c (t.val - 1) (Nat.lt_of_le_of_lt (Nat.sub_le _ _) t.isLt)).2.2
      (fun h => h0 ((hcond0_0 t).mp h)) ((hcond0_1 t).mpr h1)))

/-- WHAT A WRITING POINT `t` WRITES BACK is block `t` of the context of the states. -/
theorem flushed_ctx (c : Dev nD) (t : Fin cfg0.N) (hf : (cfg0.win 3).flush t = true) :
    (dats m 0 c).flushed 3 t = ((cfg0.win 3).blk t).view.read (Elt Ideal) (context (states m c)) := by
  have h1 : t.val % 8 = 7 := (flush0_3 t).mp hf
  have h0 : ¬t.val % 8 = 0 := by omega
  rw [flushed_copy m c t h0 h1]
  refine funext fun (y : S1x1024x2.Idx) => ?_
  obtain ⟨u, p, k, rfl⟩ : ∃ (u : Fin 1) (p : Fin 1024) (k : Fin 2), y = ix3 u p k := ⟨y 0, y 1, y 2, eq_ix3 y⟩
  show k0_pay4 (F := Ideal) ((outsAt0 m c t.val t.isLt).2.2) (ix3 u p k)
    = context (states m c) (((cfg0.win 3).blk t).view.emb (ix3 u p k))
  rw [ctxBlock_emb]
  refine (shapeCast_ab_1ab_apply _ shapeCasts_S1024x2_S1x1024x2 u p k).trans ?_
  refine (scratch_last m c t h1 (ix2 p k)).trans ?_
  rw [zero_add]
  exact addends_sum (states m c) t.val h1 p k

/-- An entry of the context array is in point `t`'s block iff each coordinate is in the block's range on its axis. -/
theorem mem_ctxBlock (t : Fin cfg0.N) (i : S4x8192x2.Idx) :
    i ∈ ((cfg0.win 3).blk t).view.set ↔ ∀ a : Fin 3, win0_3.index t a * S1x1024x2.size a ≤ (i a).val
      ∧ (i a).val < win0_3.index t a * S1x1024x2.size a + S1x1024x2.size a := by
  show i ∈ ((View.whole main_v1_1).slice (win0_3.rect t)).set ↔ _
  rw [View.set_slice_whole, Rect.mem_set_unit]
  exact Iff.rfl

/-- THE CONTEXT ARRAY after the run: the context of the states. -/
theorem final_ctx (c : Dev nD) : (dats m 0 c).arrAt 3 cfg0.N = context (states m c) :=
  (dats m 0 c).arrAt_eq_of_cover 3 (context (states m c)) (fun t hf => flushed_ctx m c t hf) fun i => by
    have hi0 : (i 0).val < 4 := (i 0).isLt
    have hi1 : (i 1).val < 8192 := (i 1).isLt
    have hi2 : (i 2).val < 2 := (i 2).isLt
    have hN : cfg0.N = 256 := N_0
    have ht : (i 0).val * 64 + (i 1).val / 1024 * 8 + 7 < cfg0.N := by rw [hN]; omega
    refine ⟨⟨(i 0).val * 64 + (i 1).val / 1024 * 8 + 7, ht⟩, (flush0_3 _).mpr (by show ((i 0).val * 64 + (i 1).val / 1024 * 8 + 7) % 8 = 7; omega), ?_⟩
    rw [mem_ctxBlock]
    obtain ⟨-, -, -, -, -, -, -, -, -, e0, e1, e2⟩ := idx_facts ⟨(i 0).val * 64 + (i 1).val / 1024 * 8 + 7, ht⟩
    simp only at e0 e1 e2
    intro a
    match a with
    | ⟨0, _⟩ =>
      show win0_3.index _ (0 : Fin 3) * 1 ≤ (i 0).val ∧ (i 0).val < win0_3.index _ (0 : Fin 3) * 1 + 1
      omega
    | ⟨1, _⟩ =>
      show win0_3.index _ (1 : Fin 3) * 1024 ≤ (i 1).val ∧ (i 1).val < win0_3.index _ (1 : Fin 3) * 1024 + 1024
      omega
    | ⟨2, _⟩ =>
      show win0_3.index _ (2 : Fin 3) * 2 ≤ (i 2).val ∧ (i 2).val < win0_3.index _ (2 : Fin 3) * 2 + 2
      omega

end Cert.KernelIdeal.Ctx

end
-- ==== Proof.lean ====
/-
  A tiled attention kernel over states in the plane, against its whole-array reference, on the extended reals.

  There are 4 batches of 8192 states `(x, y)`. For states `i` and `j` of one batch the similarity is
  `s = (x_i x_j + y_i y_j) + a (x_i y_j - y_i x_j)` with `a` the f32 word nearest one tenth, the gate is
  `g = 1 / (e + |s|)`, the attention entry is `s g` where `g > 1/2` and `0` elsewhere, and the context of state `i` is
  the sum over all `j` of the attention entry times the state `j`.

  The reference computes this with whole-array operations: two inner products over the two coordinates (the second
  against the states rotated to `(y, -x)`), the mask as a factor 0 or 1, and one matrix product for the context. The
  kernel walks a 4 x 8 x 8 grid of 1024 x 1024 tiles: each point writes its tile of the attention matrix, and along
  each row of eight tiles an accumulator, zeroed at the first, gathers the tiles' partial context sums and is written
  out at the last.

  Both end at the same two functions of the states. The laws that join them are: negation distributes over a product
  (`y (-x) = -(y x)`, so the rotated inner product is the cross product); a zero factor annihilates and a unit factor
  disappears (the mask as a factor is the mask as a choice); and a sum over 8192 columns is the sum of its eight tile
  sums. All three hold on the extended reals with infinities included, so the finiteness of the inputs is not used.
  The idealization rewrote nothing, so `preserves` has nothing to state.
-/
import proofs.«104769_j14963666059655_1_alg».proof.Defs
import proofs.«104769_j14963666059655_1_alg».proof.Proof.Gen.Kernel
import proofs.«104769_j14963666059655_1_alg».proof.Proof.Gen.Kernel.Skeleton
import proofs.«104769_j14963666059655_1_alg».proof.Proof.Gen.Kernel.Launch
import proofs.«104769_j14963666059655_1_alg».proof.Proof.Gen.Kernel.Points
import proofs.«104769_j14963666059655_1_alg».proof.Proof.Gen.Kernel.Frame
import proofs.«104769_j14963666059655_1_alg».proof.Proof.Gen.KernelIdeal
import proofs.«104769_j14963666059655_1_alg».proof.Proof.Gen.KernelIdeal.Skeleton
import proofs.«104769_j14963666059655_1_alg».proof.Proof.Gen.KernelIdeal.Launch
import proofs.«104769_j14963666059655_1_alg».proof.Proof.Gen.KernelIdeal.Points
import proofs.«104769_j14963666059655_1_alg».proof.Proof.Gen.KernelIdeal.Frame
import proofs.«104769_j14963666059655_1_alg».proof.Proof.Gen.ReferenceIdeal
import proofs.«104769_j14963666059655_1_alg».proof.Proof.Gen.Pre_finite_inputs
import proofs.«104769_j14963666059655_1_alg».proof.Proof.Gen.KernelIdeal.Value
import proofs.«104769_j14963666059655_1_alg».proof.Proof.Gen.ReferenceIdeal.Run
import proofs.«104769_j14963666059655_1_alg».proof.Proof.Gen.ReferenceIdeal.Read
import proofs.«104769_j14963666059655_1_alg».proof.Proof.FluxRef
import proofs.«104769_j14963666059655_1_alg».proof.Proof.FluxCtx
import Idealize.ShloMosaic.Adequacy
import Idealize.ShloMosaic.Init

noncomputable section

namespace Cert.Proof

open Idealize.ShloMosaic Idealize.ShloMosaic.TcCoe Idealize.SL.Sem Cert.Flux

/-- The word-level kernel runs and keeps its argument. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of whole-array operations: it runs, and its argument is no operation's result. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading on the extended reals. -/
theorem preserves : Cert.preserves_Kernel_KernelIdeal := trivial

/-- Both programs end with the attention matrix and the context of the states they were launched with. -/
theorem algebraic : Cert.algebraic_KernelIdeal_ReferenceIdeal := by
  intro m ρ m' ρ' _ hagree
  refine ⟨fun c => attention (Cert.KernelIdeal.Blocks.states m c), fun c => context (Cert.KernelIdeal.Blocks.states m c), ?_, ?_⟩
  · exact (θ_run Cert.KernelIdeal.defs _ _).mono
      (fun r h c => ⟨(h c).1.trans (Cert.KernelIdeal.Attn.final_attn m c),
        (h c).2.1.trans (Cert.KernelIdeal.Ctx.final_ctx m c), (h c).2.2⟩)
      (Cert.KernelIdeal.Value.run_blocks m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v22_eq, Cert.ReferenceIdeal.RefValue.attention_eq, hagree c]
    · rw [(h c).2.1, Cert.ReferenceIdeal.Read.val_main_v23_eq, Cert.ReferenceIdeal.RefValue.context_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
